-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S_ : Shape := ⟨0, ![]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel

variable [Facts]

def fn {F : FTy → Type} [FloatOps F] (main_arg0 : FVec F S32x2048 .f32) (main_arg1 : FVec F S32x2048 .f32) : IVec S_ 1 :=
  let main_v0 : FVec F S32x2048 .f32 := Host.absf main_arg0
  let main_cst : FVec F S_ .f32 := constant S_ .f32 0x7F800000#32
  let main_v1 : FVec F S32x2048 .f32 := broadcastInDim S32x2048 ![] bcast_S_S32x2048 main_cst
  let main_v2 : IVec S32x2048 1 := cmpf .olt main_v0 main_v1
  let main_c : IVec S_ 1 := constantI S_ 1 1#1
  let main_v3 : IVec S_ 1 := (fun x v => Host.reduce IntOp.andi x v reducesTo_S32x2048_S_d0_1 h_S_) main_v2 main_c
  let main_v4 : FVec F S32x2048 .f32 := Host.absf main_arg1
  let main_cst_0 : FVec F S_ .f32 := constant S_ .f32 0x7F800000#32
  let main_v5 : FVec F S32x2048 .f32 := broadcastInDim S32x2048 ![] bcast_S_S32x2048 main_cst_0
  let main_v6 : IVec S32x2048 1 := cmpf .olt main_v4 main_v5
  let main_c_1 : IVec S_ 1 := constantI S_ 1 1#1
  let main_v7 : IVec S_ 1 := (fun x v => Host.reduce IntOp.andi x v reducesTo_S32x2048_S_d0_1 h_S_) main_v6 main_c_1
  let main_v8 : IVec S_ 1 := andi main_v3 main_v7
  main_v8
-- ==== Kernel.lean ====
abbrev S32x2048 : Shape := ⟨2, ![32, 2048]⟩
abbrev S32x2048x2048 : Shape := ⟨3, ![32, 2048, 2048]⟩
abbrev S32x256 : Shape := ⟨2, ![32, 256]⟩
abbrev S32x512 : Shape := ⟨2, ![32, 512]⟩
abbrev S32x256x512 : Shape := ⟨3, ![32, 256, 512]⟩
abbrev S256x512 : Shape := ⟨2, ![256, 512]⟩
abbrev S256x32 : Shape := ⟨2, ![256, 32]⟩
abbrev S256x1 : Shape := ⟨2, ![256, 1]⟩
abbrev S1x512 : Shape := ⟨2, ![1, 512]⟩
abbrev S512 : Shape := ⟨1, ![512]⟩
abbrev S1x256x512 : Shape := ⟨3, ![1, 256, 512]⟩

abbrev nBuf : Space → Nat
  | .hbm => 3
  | .vmem => 6
  | .smem => 0
  | _ => 0

abbrev bufTy : (tb : Table) → Fin (tcTables nBuf tb) → BufTy
  | .hbm, ⟨0, _⟩ => ⟨S32x2048, .f32⟩
  | .hbm, ⟨1, _⟩ => ⟨S32x2048, .f32⟩
  | .hbm, ⟨2, _⟩ => ⟨S32x2048x2048, .f32⟩
  | .local _ .vmem, ⟨0, _⟩ => ⟨S32x256, .f32⟩
  | .local _ .vmem, ⟨1, _⟩ => ⟨S32x256, .f32⟩
  | .local _ .vmem, ⟨2, _⟩ => ⟨S32x512, .f32⟩
  | .local _ .vmem, ⟨3, _⟩ => ⟨S32x512, .f32⟩
  | .local _ .vmem, ⟨4, _⟩ => ⟨S32x256x512, .f32⟩
  | .local _ .vmem, ⟨5, _⟩ => ⟨S32x256x512, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c512_i32 : BitVec 32 := 512#32
  let v1 : BitVec 32 := Scalar.muli arg1 c512_i32
  let c511_i32 : BitVec 32 := 511#32
  let v2 : BitVec 32 := Scalar.addi v1 c511_i32
  let arg0 : BitVec 32 := BitVec.ofNat 32 (i 0).val
  let c256_i32 : BitVec 32 := 256#32
  let v0 : BitVec 32 := Scalar.muli arg0 c256_i32
  let v3 : BitVec 1 := Scalar.cmpi .sge v2 v0
  let c255_i32 : BitVec 32 := 255#32
  let v4 : BitVec 32 := Scalar.addi v0 c255_i32
  let c15_i32 : BitVec 32 := 15#32
  let v5 : BitVec 32 := Scalar.addi v4 c15_i32
  let v6 : BitVec 1 := Scalar.cmpi .sle v1 v5
  let v7 : BitVec 1 := Scalar.andi v3 v6
  let v8 : BitVec 32 := Scalar.extui v7
  let c0_i32 : BitVec 32 := 0#32
  let v9 : BitVec 1 := Scalar.cmpi .ne v8 c0_i32
  v9

def k0_cond2 (i : grid0.Coords) : BitVec 1 :=
  let arg1 : BitVec 32 := BitVec.ofNat 32 (i 1).val
  let c512_i32 : BitVec 32 := 512#32
  let v1 : BitVec 32 := Scalar.muli arg1 c512_i32
  let c511_i32 : BitVec 32 := 511#32
  let v2 : BitVec 32 := Scalar.addi v1 c511_i32
  let arg0 : BitVec 32 := BitVec.ofNat 32 (i 0).val
  let c256_i32 : BitVec 32 := 256#32
  let v0 : BitVec 32 := Scalar.muli arg0 c256_i32
  let v3 : BitVec 1 := Scalar.cmpi .sge v2 v0
  let c255_i32 : BitVec 32 := 255#32
  let v4 : BitVec 32 := Scalar.addi v0 c255_i32
  let c15_i32 : BitVec 32 := 15#32
  let v5 : BitVec 32 := Scalar.addi v4 c15_i32
  let v6 : BitVec 1 := Scalar.cmpi .sle v1 v5
  let v7 : BitVec 1 := Scalar.andi v3 v6
  let v_true : BitVec 1 := 1#1
  let v10 : BitVec 1 := Scalar.xori v7 v_true
  let v11 : BitVec 32 := Scalar.extui v10
  let c0_i32_0 : BitVec 32 := 0#32
  let v12 : BitVec 1 := Scalar.cmpi .ne v11 c0_i32_0
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  iota_S256x512_d0_w32 : S256x512.Iotas .tc 32 [0]
  iota_S256x512_d1_w32 : S256x512.Iotas .tc 32 [1]
  inb_S32x256_S32x256_0_0 : ∀ a, (![0, 0] : Fin 2 → Nat) a + S32x256.size a ≤ S32x256.size a
  h_S32x256 : 0 < S32x256.numel
  transposes_S32x256_p1_0_S256x32 : S32x256.Transposes [1, 0] S256x32
  slices_S256x32_o0_0_S256x1 : S256x32.Slices ![0, 0] S256x1
  inb_S32x512_S1x512_0_0 : ∀ a, (![0, 0] : Fin 2 → Nat) a + S1x512.size a ≤ S32x512.size a
  h_S1x512 : 0 < S1x512.numel
  shapeCasts_S1x512_S512 : S1x512.ShapeCasts S512
  shapeCasts_S512_S1x512 : S512.ShapeCasts S1x512
  broadcasts_S256x1_S256x512 : S256x1.Broadcasts S256x512
  broadcasts_S1x512_S256x512 : S1x512.Broadcasts S256x512
  inb_S32x256x512_S1x256x512_0_0_0 : ∀ a, (![0, 0, 0] : Fin 3 → Nat) a + S1x256x512.size a ≤ S32x256x512.size a
  h_S1x256x512 : 0 < S1x256x512.numel
  shapeCasts_S1x256x512_S256x512 : S1x256x512.ShapeCasts S256x512
  shapeCasts_S256x512_S1x256x512 : S256x512.ShapeCasts S1x256x512
  slices_S256x32_o0_1_S256x1 : S256x32.Slices ![0, 1] S256x1
  inb_S32x512_S1x512_1_0 : ∀ a, (![1, 0] : Fin 2 → Nat) a + S1x512.size a ≤ S32x512.size a
  inb_S32x256x512_S1x256x512_1_0_0 : ∀ a, (![1, 0, 0] : Fin 3 → Nat) a + S1x256x512.size a ≤ S32x256x512.size a
  slices_S256x32_o0_2_S256x1 : S256x32.Slices ![0, 2] S256x1
  inb_S32x512_S1x512_2_0 : ∀ a, (![2, 0] : Fin 2 → Nat) a + S1x512.size a ≤ S32x512.size a
  inb_S32x256x512_S1x256x512_2_0_0 : ∀ a, (![2, 0, 0] : Fin 3 → Nat) a + S1x256x512.size a ≤ S32x256x512.size a
  slices_S256x32_o0_3_S256x1 : S256x32.Slices ![0, 3] S256x1
  inb_S32x512_S1x512_3_0 : ∀ a, (![3, 0] : Fin 2 → Nat) a + S1x512.size a ≤ S32x512.size a
  inb_S32x256x512_S1x256x512_3_0_0 : ∀ a, (![3, 0, 0] : Fin 3 → Nat) a + S1x256x512.size a ≤ S32x256x512.size a
  slices_S256x32_o0_4_S256x1 : S256x32.Slices ![0, 4] S256x1
  inb_S32x512_S1x512_4_0 : ∀ a, (![4, 0] : Fin 2 → Nat) a + S1x512.size a ≤ S32x512.size a
  inb_S32x256x512_S1x256x512_4_0_0 : ∀ a, (![4, 0, 0] : Fin 3 → Nat) a + S1x256x512.size a ≤ S32x256x512.size a
  slices_S256x32_o0_5_S256x1 : S256x32.Slices ![0, 5] S256x1
  inb_S32x512_S1x512_5_0 : ∀ a, (![5, 0] : Fin 2 → Nat) a + S1x512.size a ≤ S32x512.size a
  inb_S32x256x512_S1x256x512_5_0_0 : ∀ a, (![5, 0, 0] : Fin 3 → Nat) a + S1x256x512.size a ≤ S32x256x512.size a
  slices_S256x32_o0_6_S256x1 : S256x32.Slices ![0, 6] S256x1
  inb_S32x512_S1x512_6_0 : ∀ a, (![6, 0] : Fin 2 → Nat) a + S1x512.size a ≤ S32x512.size a
  inb_S32x256x512_S1x256x512_6_0_0 : ∀ a, (![6, 0, 0] : Fin 3 → Nat) a + S1x256x512.size a ≤ S32x256x512.size a
  slices_S256x32_o0_7_S256x1 : S256x32.Slices ![0, 7] S256x1
  inb_S32x512_S1x512_7_0 : ∀ a, (![7, 0] : Fin 2 → Nat) a + S1x512.size a ≤ S32x512.size a
  inb_S32x256x512_S1x256x512_7_0_0 : ∀ a, (![7, 0, 0] : Fin 3 → Nat) a + S1x256x512.size a ≤ S32x256x512.size a
  slices_S256x32_o0_8_S256x1 : S256x32.Slices ![0, 8] S256x1
  inb_S32x512_S1x512_8_0 : ∀ a, (![8, 0] : Fin 2 → Nat) a + S1x512.size a ≤ S32x512.size a
  inb_S32x256x512_S1x256x512_8_0_0 : ∀ a, (![8, 0, 0] : Fin 3 → Nat) a + S1x256x512.size a ≤ S32x256x512.size a
  slices_S256x32_o0_9_S256x1 : S256x32.Slices ![0, 9] S256x1
  inb_S32x512_S1x512_9_0 : ∀ a, (![9, 0] : Fin 2 → Nat) a + S1x512.size a ≤ S32x512.size a
  inb_S32x256x512_S1x256x512_9_0_0 : ∀ a, (![9, 0, 0] : Fin 3 → Nat) a + S1x256x512.size a ≤ S32x256x512.size a
  slices_S256x32_o0_10_S256x1 : S256x32.Slices ![0, 10] S256x1
  inb_S32x512_S1x512_10_0 : ∀ a, (![10, 0] : Fin 2 → Nat) a + S1x512.size a ≤ S32x512.size a
  inb_S32x256x512_S1x256x512_10_0_0 : ∀ a, (![10, 0, 0] : Fin 3 → Nat) a + S1x256x512.size a ≤ S32x256x512.size a
  slices_S256x32_o0_11_S256x1 : S256x32.Slices ![0, 11] S256x1
  inb_S32x512_S1x512_11_0 : ∀ a, (![11, 0] : Fin 2 → Nat) a + S1x512.size a ≤ S32x512.size a
  inb_S32x256x512_S1x256x512_11_0_0 : ∀ a, (![11, 0, 0] : Fin 3 → Nat) a + S1x256x512.size a ≤ S32x256x512.size a
  slices_S256x32_o0_12_S256x1 : S256x32.Slices ![0, 12] S256x1
  inb_S32x512_S1x512_12_0 : ∀ a, (![12, 0] : Fin 2 → Nat) a + S1x512.size a ≤ S32x512.size a
  inb_S32x256x512_S1x256x512_12_0_0 : ∀ a, (![12, 0, 0] : Fin 3 → Nat) a + S1x256x512.size a ≤ S32x256x512.size a
  slices_S256x32_o0_13_S256x1 : S256x32.Slices ![0, 13] S256x1
  inb_S32x512_S1x512_13_0 : ∀ a, (![13, 0] : Fin 2 → Nat) a + S1x512.size a ≤ S32x512.size a
  inb_S32x256x512_S1x256x512_13_0_0 : ∀ a, (![13, 0, 0] : Fin 3 → Nat) a + S1x256x512.size a ≤ S32x256x512.size a
  slices_S256x32_o0_14_S256x1 : S256x32.Slices ![0, 14] S256x1
  inb_S32x512_S1x512_14_0 : ∀ a, (![14, 0] : Fin 2 → Nat) a + S1x512.size a ≤ S32x512.size a
  inb_S32x256x512_S1x256x512_14_0_0 : ∀ a, (![14, 0, 0] : Fin 3 → Nat) a + S1x256x512.size a ≤ S32x256x512.size a
  slices_S256x32_o0_15_S256x1 : S256x32.Slices ![0, 15] S256x1
  inb_S32x512_S1x512_15_0 : ∀ a, (![15, 0] : Fin 2 → Nat) a + S1x512.size a ≤ S32x512.size a
  inb_S32x256x512_S1x256x512_15_0_0 : ∀ a, (![15, 0, 0] : Fin 3 → Nat) a + S1x256x512.size a ≤ S32x256x512.size a
  slices_S256x32_o0_16_S256x1 : S256x32.Slices ![0, 16] S256x1
  inb_S32x512_S1x512_16_0 : ∀ a, (![16, 0] : Fin 2 → Nat) a + S1x512.size a ≤ S32x512.size a
  inb_S32x256x512_S1x256x512_16_0_0 : ∀ a, (![16, 0, 0] : Fin 3 → Nat) a + S1x256x512.size a ≤ S32x256x512.size a
  slices_S256x32_o0_17_S256x1 : S256x32.Slices ![0, 17] S256x1
  inb_S32x512_S1x512_17_0 : ∀ a, (![17, 0] : Fin 2 → Nat) a + S1x512.size a ≤ S32x512.size a
  inb_S32x256x512_S1x256x512_17_0_0 : ∀ a, (![17, 0, 0] : Fin 3 → Nat) a + S1x256x512.size a ≤ S32x256x512.size a
  slices_S256x32_o0_18_S256x1 : S256x32.Slices ![0, 18] S256x1
  inb_S32x512_S1x512_18_0 : ∀ a, (![18, 0] : Fin 2 → Nat) a + S1x512.size a ≤ S32x512.size a
  inb_S32x256x512_S1x256x512_18_0_0 : ∀ a, (![18, 0, 0] : Fin 3 → Nat) a + S1x256x512.size a ≤ S32x256x512.size a
  slices_S256x32_o0_19_S256x1 : S256x32.Slices ![0, 19] S256x1
  inb_S32x512_S1x512_19_0 : ∀ a, (![19, 0] : Fin 2 → Nat) a + S1x512.size a ≤ S32x512.size a
  inb_S32x256x512_S1x256x512_19_0_0 : ∀ a, (![19, 0, 0] : Fin 3 → Nat) a + S1x256x512.size a ≤ S32x256x512.size a
  slices_S256x32_o0_20_S256x1 : S256x32.Slices ![0, 20] S256x1
  inb_S32x512_S1x512_20_0 : ∀ a, (![20, 0] : Fin 2 → Nat) a + S1x512.size a ≤ S32x512.size a
  inb_S32x256x512_S1x256x512_20_0_0 : ∀ a, (![20, 0, 0] : Fin 3 → Nat) a + S1x256x512.size a ≤ S32x256x512.size a
  slices_S256x32_o0_21_S256x1 : S256x32.Slices ![0, 21] S256x1
  inb_S32x512_S1x512_21_0 : ∀ a, (![21, 0] : Fin 2 → Nat) a + S1x512.size a ≤ S32x512.size a
  inb_S32x256x512_S1x256x512_21_0_0 : ∀ a, (![21, 0, 0] : Fin 3 → Nat) a + S1x256x512.size a ≤ S32x256x512.size a
  slices_S256x32_o0_22_S256x1 : S256x32.Slices ![0, 22] S256x1
  inb_S32x512_S1x512_22_0 : ∀ a, (![22, 0] : Fin 2 → Nat) a + S1x512.size a ≤ S32x512.size a
  inb_S32x256x512_S1x256x512_22_0_0 : ∀ a, (![22, 0, 0] : Fin 3 → Nat) a + S1x256x512.size a ≤ S32x256x512.size a
  slices_S256x32_o0_23_S256x1 : S256x32.Slices ![0, 23] S256x1
  inb_S32x512_S1x512_23_0 : ∀ a, (![23, 0] : Fin 2 → Nat) a + S1x512.size a ≤ S32x512.size a
  inb_S32x256x512_S1x256x512_23_0_0 : ∀ a, (![23, 0, 0] : Fin 3 → Nat) a + S1x256x512.size a ≤ S32x256x512.size a
  slices_S256x32_o0_24_S256x1 : S256x32.Slices ![0, 24] S256x1
  inb_S32x512_S1x512_24_0 : ∀ a, (![24, 0] : Fin 2 → Nat) a + S1x512.size a ≤ S32x512.size a
  inb_S32x256x512_S1x256x512_24_0_0 : ∀ a, (![24, 0, 0] : Fin 3 → Nat) a + S1x256x512.size a ≤ S32x256x512.size a
  slices_S256x32_o0_25_S256x1 : S256x32.Slices ![0, 25] S256x1
  inb_S32x512_S1x512_25_0 : ∀ a, (![25, 0] : Fin 2 → Nat) a + S1x512.size a ≤ S32x512.size a
  inb_S32x256x512_S1x256x512_25_0_0 : ∀ a, (![25, 0, 0] : Fin 3 → Nat) a + S1x256x512.size a ≤ S32x256x512.size a
  slices_S256x32_o0_26_S256x1 : S256x32.Slices ![0, 26] S256x1
  inb_S32x512_S1x512_26_0 : ∀ a, (![26, 0] : Fin 2 → Nat) a + S1x512.size a ≤ S32x512.size a
  inb_S32x256x512_S1x256x512_26_0_0 : ∀ a, (![26, 0, 0] : Fin 3 → Nat) a + S1x256x512.size a ≤ S32x256x512.size a
  slices_S256x32_o0_27_S256x1 : S256x32.Slices ![0, 27] S256x1
  inb_S32x512_S1x512_27_0 : ∀ a, (![27, 0] : Fin 2 → Nat) a + S1x512.size a ≤ S32x512.size a
  inb_S32x256x512_S1x256x512_27_0_0 : ∀ a, (![27, 0, 0] : Fin 3 → Nat) a + S1x256x512.size a ≤ S32x256x512.size a
  slices_S256x32_o0_28_S256x1 : S256x32.Slices ![0, 28] S256x1
  inb_S32x512_S1x512_28_0 : ∀ a, (![28, 0] : Fin 2 → Nat) a + S1x512.size a ≤ S32x512.size a
  inb_S32x256x512_S1x256x512_28_0_0 : ∀ a, (![28, 0, 0] : Fin 3 → Nat) a + S1x256x512.size a ≤ S32x256x512.size a
  slices_S256x32_o0_29_S256x1 : S256x32.Slices ![0, 29] S256x1
  inb_S32x512_S1x512_29_0 : ∀ a, (![29, 0] : Fin 2 → Nat) a + S1x512.size a ≤ S32x512.size a
  inb_S32x256x512_S1x256x512_29_0_0 : ∀ a, (![29, 0, 0] : Fin 3 → Nat) a + S1x256x512.size a ≤ S32x256x512.size a
  slices_S256x32_o0_30_S256x1 : S256x32.Slices ![0, 30] S256x1
  inb_S32x512_S1x512_30_0 : ∀ a, (![30, 0] : Fin 2 → Nat) a + S1x512.size a ≤ S32x512.size a
  inb_S32x256x512_S1x256x512_30_0_0 : ∀ a, (![30, 0, 0] : Fin 3 → Nat) a + S1x256x512.size a ≤ S32x256x512.size a
  slices_S256x32_o0_31_S256x1 : S256x32.Slices ![0, 31] S256x1
  inb_S32x512_S1x512_31_0 : ∀ a, (![31, 0] : Fin 2 → Nat) a + S1x512.size a ≤ S32x512.size a
  inb_S32x256x512_S1x256x512_31_0_0 : ∀ a, (![31, 0, 0] : Fin 3 → Nat) a + S1x256x512.size a ≤ S32x256x512.size a
  inb_S32x256x512_S32x256x512_0_0_0 : ∀ a, (![0, 0, 0] : Fin 3 → Nat) a + S32x256x512.size a ≤ S32x256x512.size a
  h_S32x256x512 : 0 < S32x256x512.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S32x2048.size a
  hwx0_0 : ∀ i : grid0.Coords, EltTy.bits .f32 = 32 ∨ (Rect.block (s := S32x2048) S32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x2048.size a
  hwx0_1 : ∀ i : grid0.Coords, EltTy.bits .f32 = 32 ∨ (Rect.block (s := S32x2048) S32x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256x512.size a ≤ S32x2048x2048.size a
  hwx0_2 : ∀ i : grid0.Coords, EltTy.bits .f32 = 32 ∨ (Rect.block (s := S32x2048x2048) S32x256x512.size (cc0_transform_2 i) (hinb0_2 i)).WholeWords (EltTy.packing .f32)

variable [Facts₀]

abbrev win0_0 : Pipeline.Window sig grid0 :=
  Pipeline.Window.ofSpec (Memref.whole main_arg0) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S32x2048 : Shape := ⟨2, ![32, 2048]⟩
abbrev S32x2048x1 : Shape := ⟨3, ![32, 2048, 1]⟩
abbrev S32x1x2048 : Shape := ⟨3, ![32, 1, 2048]⟩
abbrev S32x2048x2048 : Shape := ⟨3, ![32, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S32x2048, .f32⟩
  | .hbm, ⟨2, _⟩ => ⟨S32x2048x1, .f32⟩
  | .hbm, ⟨3, _⟩ => ⟨S32x1x2048, .f32⟩
  | .hbm, ⟨4, _⟩ => ⟨S32x2048x2048, .f32⟩
  | .hbm, ⟨5, _⟩ => ⟨S32x2048x2048, .f32⟩
  | .hbm, ⟨6, _⟩ => ⟨S32x2048x2048, .f32⟩
  | .hbm, ⟨7, _⟩ => ⟨S2048, .i32⟩
  | .hbm, ⟨8, _⟩ => ⟨S2048x1, .i32⟩
  | .hbm, ⟨9, _⟩ => ⟨S2048, .i32⟩
  | .hbm, ⟨10, _⟩ => ⟨S1x2048, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S2048x2048, .i32⟩
  | .hbm, ⟨15, _⟩ => ⟨S2048x2048, .i32⟩
  | .hbm, ⟨16, _⟩ => ⟨S2048x2048, .i32⟩
  | .hbm, ⟨17, _⟩ => ⟨S_, .i32⟩
  | .hbm, ⟨18, _⟩ => ⟨S2048x2048, .i32⟩
  | .hbm, ⟨19, _⟩ => ⟨S2048x2048, .i1⟩
  | .hbm, ⟨20, _⟩ => ⟨S2048x2048, .i1⟩
  | .hbm, ⟨21, _⟩ => ⟨S_, .f32⟩
  | .hbm, ⟨22, _⟩ => ⟨S32x2048x2048, .i1⟩
  | .hbm, ⟨23, _⟩ => ⟨S32x2048x2048, .f32⟩
  | .hbm, ⟨24, _⟩ => ⟨S32x2048x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  bcast_S32x2048_S32x2048x1_0_1 : S32x2048.BroadcastsInDim S32x2048x1 (![0, 1] : Fin 2 → Fin S32x2048x1.rank)
  bcast_S32x2048_S32x1x2048_0_2 : S32x2048.BroadcastsInDim S32x1x2048 (![0, 2] : Fin 2 → Fin S32x1x2048.rank)
  bcast_S32x2048x1_S32x2048x2048_0_1_2 : S32x2048x1.BroadcastsInDim S32x2048x2048 (![0, 1, 2] : Fin 3 → Fin S32x2048x2048.rank)
  bcast_S32x1x2048_S32x2048x2048_0_1_2 : S32x1x2048.BroadcastsInDim S32x2048x2048 (![0, 1, 2] : Fin 3 → Fin S32x2048x2048.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  bcast_S2048x2048_S32x2048x2048_1_2 : S2048x2048.BroadcastsInDim S32x2048x2048 (![1, 2] : Fin 2 → Fin S32x2048x2048.rank)
  bcast_S_S32x2048x2048 : S_.BroadcastsInDim S32x2048x2048 (![] : Fin 0 → Fin S32x2048x2048.rank)

variable [Facts₀]

class Facts : Prop extends Facts₀ where

variable [Facts]
-- ==== Proof.BitsBodyZero.lean ====
/-
  The zero-fill case of the band kernel's body. At a grid point (i, j) whose 256 x 512 tile cannot meet the band
  { (r, c) : r ≤ c ≤ r + 15 } the body's first conditional is skipped and its second one stores the constant zero
  through the whole [32, 256, 512] output block. The two conditions are complementary at every point of the 8 x 4
  grid (the second is the first one's bounding-box test negated), so exactly one of the two branches runs, and the
  output window is stored into at every point.
-/
import proofs.«413403_j54305566491023_3_alg».proof.Proof.Gen.Kernel.Frame
import proofs.«413403_j54305566491023_3_alg».proof.Proof.Gen.Kernel.Skeleton
import Idealize.ShloMosaic.Lib.Pipeline.Frame
import Idealize.ShloMosaic.Lib.Exec.Geometry

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions over the grid -/

/-- The second branch (zero fill) is taken exactly where the first (band tile) is not. -/
theorem cond2_iff : ∀ t : Fin cfg0.N, k0_cond2 (grid0.coords t) = 1#1 ↔ ¬ k0_cond1 (grid0.coords t) = 1#1 :=
  (by decide +kernel : ∀ t : Fin grid0.N, k0_cond2 (grid0.coords t) = 1#1 ↔ ¬ k0_cond1 (grid0.coords t) = 1#1)

/-- So the output window is stored into at every point: it is nowhere idle. -/
theorem live2 : ∀ t : Fin cfg0.N, cfg0.idle 2 (grid0.coords t) = false := by decide +kernel

/-! ## The body where the tile misses the band -/

set_option maxHeartbeats 1000000 in
/-- The pieces the body leaves in the output block when only the zero-fill branch runs, with the run that finds
    them: on whole staging buffers, the two inputs at their blocks and the output at anything, the body ends with
    the inputs untouched and the output block written with those pieces. -/
noncomputable def kernelRunZ (c : Dev nD) (i : grid0.Coords) (arg2 : Memref sig .tc .vmem S32x256 .f32) (harg2 : arg2.IsWhole)
    (arg3 : Memref sig .tc .vmem S32x512 .f32) (harg3 : arg3.IsWhole) (arg4 : Memref sig .tc .vmem S32x256x512 .f32) (harg4 : arg4.IsWhole)
    (hc1 : ¬ k0_cond1 i = 1#1) (hc2 : k0_cond2 i = 1#1)
    (x0 : Vec F S32x256 .f32) (x1 : Vec F S32x512 .f32) :
    { L : List (View.Piece (Elt F) S32x256x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__band_outer_kernel i arg2 harg2 arg3 harg3 arg4 harg4) K } := by
  refine ⟨?_, fun E K => ?run⟩
  case run =>
    simp only [cc0__band_outer_kernel_eq_skeleton]; unfold cc0__band_outer_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.BitsBodyBand.lean ====
/-
  The band case of the kernel's body. At a grid point (i, j) whose 256 x 512 tile may meet the band the first
  conditional runs: for each of the 32 batch rows b it stores, through row b of the [32, 256, 512] output block, the
  outer product of column b of the transposed s-block with row b of the e-block, kept where the tile's global
  position (256 i + r, 512 j + c) lies in the band r' ≤ c' ≤ r' + 15 and zero elsewhere. The second conditional
  (the zero fill) is not taken there.
-/
import proofs.«413403_j54305566491023_3_alg».proof.Proof.BitsBodyZero

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The 32 pieces the body leaves in the output block when the band branch runs, with the run that finds them: on
    whole staging buffers, the two inputs at their blocks and the output at anything, the body ends with the inputs
    untouched and the output block written with those pieces. -/
noncomputable def kernelRunB (c : Dev nD) (i : grid0.Coords) (arg2 : Memref sig .tc .vmem S32x256 .f32) (harg2 : arg2.IsWhole)
    (arg3 : Memref sig .tc .vmem S32x512 .f32) (harg3 : arg3.IsWhole) (arg4 : Memref sig .tc .vmem S32x256x512 .f32) (harg4 : arg4.IsWhole)
    (hc1 : k0_cond1 i = 1#1) (hc2 : ¬ k0_cond2 i = 1#1)
    (x0 : Vec F S32x256 .f32) (x1 : Vec F S32x512 .f32) :
    { L : List (View.Piece (Elt F) S32x256x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__band_outer_kernel i arg2 harg2 arg3 harg3 arg4 harg4) K } := by
  refine ⟨?_, fun E K => ?run⟩
  case run =>
    simp only [cc0__band_outer_kernel_eq_skeleton]; unfold cc0__band_outer_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.BitsBodyFrame.lean ====
/-
  The frame of the band kernel: the pipeline's proof data over the two body cases, the body obligation at every
  grid point, the run and the frame claim's post. At point t the output block ends as the band case's 32 row
  pieces where the tile may meet the band and as the zero fill elsewhere; the two input blocks are left in place.
  The output window is written back at every point, and the body stores into it at every point.
-/
import proofs.«413403_j54305566491023_3_alg».proof.Proof.BitsBodyBand

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers the body is called with -/

/-- One staging buffer of the output window, through which its contents are stated (the choice does not matter). -/
abbrev VO : View sig .tc .vmem S32x256x512 .f32 := (Memref.whole cc0_stg2_0 : Memref sig .tc .vmem S32x256x512 .f32).view
abbrev ms0 (t : Fin cfg0.N) : Memref sig .tc .vmem S32x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S32x256x512 .f32 := win0_2.stage (cfg0.slots t 2)
abbrev hs2 (t : Fin cfg0.N) : (ms2 t).IsWhole := hstage0_2 ((cfg0.slots t 2).cast nbuf0_2)

/-! ## What each case leaves in the output block -/

/-- The zero fill is one store through the whole block: it covers it. -/
theorem coverZ (c : Dev nD) (i : grid0.Coords) (arg2 : Memref sig .tc .vmem S32x256 .f32) (harg2 : arg2.IsWhole)
    (arg3 : Memref sig .tc .vmem S32x512 .f32) (harg3 : arg3.IsWhole) (arg4 : Memref sig .tc .vmem S32x256x512 .f32) (harg4 : arg4.IsWhole)
    (hc1 : ¬ k0_cond1 i = 1#1) (hc2 : k0_cond2 i = 1#1) (x0 : Vec F S32x256 .f32) (x1 : Vec F S32x512 .f32) (y : S32x256x512.Idx) :
    ∃ pc ∈ (kernelRunZ c i arg2 harg2 arg3 harg3 arg4 harg4 hc1 hc2 x0 x1).1, y ∈ pc.1.set :=
  View.cover_of_tiledL (kernelRunZ c i arg2 harg2 arg3 harg3 arg4 harg4 hc1 hc2 x0 x1).1 S32x256x512.size (by sl_kernel_rfl) y

/-- The band case's 32 stores, one [1, 256, 512] row each, tile the block: they cover it. -/
theorem coverB (c : Dev nD) (i : grid0.Coords) (arg2 : Memref sig .tc .vmem S32x256 .f32) (harg2 : arg2.IsWhole)
    (arg3 : Memref sig .tc .vmem S32x512 .f32) (harg3 : arg3.IsWhole) (arg4 : Memref sig .tc .vmem S32x256x512 .f32) (harg4 : arg4.IsWhole)
    (hc1 : k0_cond1 i = 1#1) (hc2 : ¬ k0_cond2 i = 1#1) (x0 : Vec F S32x256 .f32) (x1 : Vec F S32x512 .f32) (y : S32x256x512.Idx) :
    ∃ pc ∈ (kernelRunB c i arg2 harg2 arg3 harg3 arg4 harg4 hc1 hc2 x0 x1).1, y ∈ pc.1.set :=
  View.cover_of_tiledL (kernelRunB c i arg2 harg2 arg3 harg3 arg4 harg4 hc1 hc2 x0 x1).1 S1x256x512.size (by sl_kernel_rfl) y

/-- What the zero-fill case leaves in the output block: its piece read back. -/
def outZ (c : Dev nD) (i : grid0.Coords) (arg2 : Memref sig .tc .vmem S32x256 .f32) (harg2 : arg2.IsWhole)
    (arg3 : Memref sig .tc .vmem S32x512 .f32) (harg3 : arg3.IsWhole) (arg4 : Memref sig .tc .vmem S32x256x512 .f32) (harg4 : arg4.IsWhole)
    (hc1 : ¬ k0_cond1 i = 1#1) (hc2 : k0_cond2 i = 1#1) (x0 : Vec F S32x256 .f32) (x1 : Vec F S32x512 .f32) : Vec F S32x256x512 .f32 :=
  VO.read (Elt F) (VO.writes (Elt F) VO.junk (kernelRunZ c i arg2 harg2 arg3 harg3 arg4 harg4 hc1 hc2 x0 x1).1)

/-- What the band case leaves in the output block: its 32 pieces read back. -/
def outB (c : Dev nD) (i : grid0.Coords) (arg2 : Memref sig .tc .vmem S32x256 .f32) (harg2 : arg2.IsWhole)
    (arg3 : Memref sig .tc .vmem S32x512 .f32) (harg3 : arg3.IsWhole) (arg4 : Memref sig .tc .vmem S32x256x512 .f32) (harg4 : arg4.IsWhole)
    (hc1 : k0_cond1 i = 1#1) (hc2 : ¬ k0_cond2 i = 1#1) (x0 : Vec F S32x256 .f32) (x1 : Vec F S32x512 .f32) : Vec F S32x256x512 .f32 :=
  VO.read (Elt F) (VO.writes (Elt F) VO.junk (kernelRunB c i arg2 harg2 arg3 harg3 arg4 harg4 hc1 hc2 x0 x1).1)

/-- What the output block holds after the body at point t: the band case where the tile may meet the band, the
    zero fill elsewhere, each run on the point's staging buffers and input blocks. -/
def outAt (c : Dev nD) (t : Fin cfg0.N) : Vec F S32x256x512 .f32 :=
  if h : k0_cond1 (grid0.coords t) = 1#1 then
    outB c (grid0.coords t) (ms0 t) (hs0 t) (ms1 t) (hs1 t) (ms2 t) (hs2 t) h (fun h2 => (cond2_iff t).mp h2 h) (iblk m c 0 t) (iblk m c 1 t)
  else
    outZ c (grid0.coords t) (ms0 t) (hs0 t) (ms1 t) (hs1 t) (ms2 t) (hs2 t) h ((cond2_iff t).mpr h) (iblk m c 0 t) (iblk m c 1 t)

theorem outAt_band (c : Dev nD) (t : Fin cfg0.N) (h : k0_cond1 (grid0.coords t) = 1#1) :
    outAt m c t = outB c (grid0.coords t) (ms0 t) (hs0 t) (ms1 t) (hs1 t) (ms2 t) (hs2 t) h (fun h2 => (cond2_iff t).mp h2 h) (iblk m c 0 t) (iblk m c 1 t) :=
  dif_pos h

theorem outAt_zero (c : Dev nD) (t : Fin cfg0.N) (h : ¬ k0_cond1 (grid0.coords t) = 1#1) :
    outAt m c t = outZ c (grid0.coords t) (ms0 t) (hs0 t) (ms1 t) (hs1 t) (ms2 t) (hs2 t) h ((cond2_iff t).mpr h) (iblk m c 0 t) (iblk m c 1 t) :=
  dif_neg h

/-! ## The pipeline's proof data -/

/-- The proof data of the one pipeline on core c: the arrays as the region finds them; after the body at point t
    each input's buffer at its block and the output's at `outAt`; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outAt m c t := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 1000000 in
/-- The body at any point: the inputs' buffers hold their blocks; the first condition says which case the point is
    in, and that case's run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  by_cases h : k0_cond1 (grid0.coords t) = 1#1
  · rw [outAt_band m c t h]
    unfold outB
    iintro ⟨HΦ, Ho, ⟨%d0, H0⟩, ⟨%d1, H1⟩, ⟨%d2, H2⟩⟩
    iapply ((kernelRunB c (grid0.coords t) _ _ _ _ _ _ h (fun h2 => (cond2_iff t).mp h2 h) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverB c _ _ _ _ _ _ _ _ _ _ _)
  · rw [outAt_zero m c t h]
    unfold outZ
    iintro ⟨HΦ, Ho, ⟨%d0, H0⟩, ⟨%d1, H1⟩, ⟨%d2, H2⟩⟩
    iapply ((kernelRunZ c (grid0.coords t) _ _ _ _ _ _ h ((cond2_iff t).mpr h) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverZ c _ _ _ _ _ _ _ _ _ _ _)

/-- The library's body obligation, at every point: the output window is live at every point. -/
theorem body_obligation (c : Dev nD) : BodyObligation (dats (F := F) m 0 c) (defs₀ (F := F)) Variants.none () Set.univ := fun t => by
  rw [bigSep_W0, bigSep_W0]
  have hl : idle0 2 (grid0.coords t) = false := live2 t
  simp only [hl]
  exact sound_body m c t

/-! ## The run and the frame -/

set_option backward.isDefEq.respectTransparency.types false in
/-- At the compiled mesh, from any memory with zero counters: every weakly fair execution of @main terminates, and
    every final state has every array of the pipeline at what the library computes from the proof data. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.BodyZero.lean ====
/-
  The zero-fill case of the band kernel's body. At a grid point (i, j) whose 256 x 512 tile cannot meet the band
  { (r, c) : r ≤ c ≤ r + 15 } the body's first conditional is skipped and its second one stores the constant zero
  through the whole [32, 256, 512] output block. The two conditions are complementary at every point of the 8 x 4
  grid (the second is the first one's bounding-box test negated), so exactly one of the two branches runs, and the
  output window is stored into at every point.
-/
import proofs.«413403_j54305566491023_3_alg».proof.Proof.Gen.KernelIdeal.Frame
import proofs.«413403_j54305566491023_3_alg».proof.Proof.Gen.KernelIdeal.Skeleton
import Idealize.ShloMosaic.Lib.Pipeline.Frame
import Idealize.ShloMosaic.Lib.Exec.Geometry

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions over the grid -/

/-- The second branch (zero fill) is taken exactly where the first (band tile) is not. -/
theorem cond2_iff : ∀ t : Fin cfg0.N, k0_cond2 (grid0.coords t) = 1#1 ↔ ¬ k0_cond1 (grid0.coords t) = 1#1 :=
  (by decide +kernel : ∀ t : Fin grid0.N, k0_cond2 (grid0.coords t) = 1#1 ↔ ¬ k0_cond1 (grid0.coords t) = 1#1)

/-- So the output window is stored into at every point: it is nowhere idle. -/
theorem live2 : ∀ t : Fin cfg0.N, cfg0.idle 2 (grid0.coords t) = false := by decide +kernel

/-! ## The body where the tile misses the band -/

set_option maxHeartbeats 1000000 in
/-- The pieces the body leaves in the output block when only the zero-fill branch runs, with the run that finds
    them: on whole staging buffers, the two inputs at their blocks and the output at anything, the body ends with
    the inputs untouched and the output block written with those pieces. -/
noncomputable def kernelRunZ (c : Dev nD) (i : grid0.Coords) (arg2 : Memref sig .tc .vmem S32x256 .f32) (harg2 : arg2.IsWhole)
    (arg3 : Memref sig .tc .vmem S32x512 .f32) (harg3 : arg3.IsWhole) (arg4 : Memref sig .tc .vmem S32x256x512 .f32) (harg4 : arg4.IsWhole)
    (hc1 : ¬ k0_cond1 i = 1#1) (hc2 : k0_cond2 i = 1#1)
    (x0 : Vec F S32x256 .f32) (x1 : Vec F S32x512 .f32) :
    { L : List (View.Piece (Elt F) S32x256x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__band_outer_kernel i arg2 harg2 arg3 harg3 arg4 harg4) K } := by
  refine ⟨?_, fun E K => ?run⟩
  case run =>
    simp only [cc0__band_outer_kernel_eq_skeleton]; unfold cc0__band_outer_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.BodyBand.lean ====
/-
  The band case of the kernel's body. At a grid point (i, j) whose 256 x 512 tile may meet the band the first
  conditional runs: for each of the 32 batch rows b it stores, through row b of the [32, 256, 512] output block, the
  outer product of column b of the transposed s-block with row b of the e-block, kept where the tile's global
  position (256 i + r, 512 j + c) lies in the band r' ≤ c' ≤ r' + 15 and zero elsewhere. The second conditional
  (the zero fill) is not taken there.
-/
import proofs.«413403_j54305566491023_3_alg».proof.Proof.BodyZero

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The 32 pieces the body leaves in the output block when the band branch runs, with the run that finds them: on
    whole staging buffers, the two inputs at their blocks and the output at anything, the body ends with the inputs
    untouched and the output block written with those pieces. -/
noncomputable def kernelRunB (c : Dev nD) (i : grid0.Coords) (arg2 : Memref sig .tc .vmem S32x256 .f32) (harg2 : arg2.IsWhole)
    (arg3 : Memref sig .tc .vmem S32x512 .f32) (harg3 : arg3.IsWhole) (arg4 : Memref sig .tc .vmem S32x256x512 .f32) (harg4 : arg4.IsWhole)
    (hc1 : k0_cond1 i = 1#1) (hc2 : ¬ k0_cond2 i = 1#1)
    (x0 : Vec F S32x256 .f32) (x1 : Vec F S32x512 .f32) :
    { L : List (View.Piece (Elt F) S32x256x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E (cc0__band_outer_kernel i arg2 harg2 arg3 harg3 arg4 harg4) K } := by
  refine ⟨?_, fun E K => ?run⟩
  case run =>
    simp only [cc0__band_outer_kernel_eq_skeleton]; unfold cc0__band_outer_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.BodyFrame.lean ====
/-
  The frame of the band kernel: the pipeline's proof data over the two body cases, the body obligation at every
  grid point, the run and the frame claim's post. At point t the output block ends as the band case's 32 row
  pieces where the tile may meet the band and as the zero fill elsewhere; the two input blocks are left in place.
  The output window is written back at every point, and the body stores into it at every point.
-/
import proofs.«413403_j54305566491023_3_alg».proof.Proof.BodyBand

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers the body is called with -/

/-- One staging buffer of the output window, through which its contents are stated (the choice does not matter). -/
abbrev VO : View sig .tc .vmem S32x256x512 .f32 := (Memref.whole cc0_stg2_0 : Memref sig .tc .vmem S32x256x512 .f32).view
abbrev ms0 (t : Fin cfg0.N) : Memref sig .tc .vmem S32x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S32x256x512 .f32 := win0_2.stage (cfg0.slots t 2)
abbrev hs2 (t : Fin cfg0.N) : (ms2 t).IsWhole := hstage0_2 ((cfg0.slots t 2).cast nbuf0_2)

/-! ## What each case leaves in the output block -/

/-- The zero fill is one store through the whole block: it covers it. -/
theorem coverZ (c : Dev nD) (i : grid0.Coords) (arg2 : Memref sig .tc .vmem S32x256 .f32) (harg2 : arg2.IsWhole)
    (arg3 : Memref sig .tc .vmem S32x512 .f32) (harg3 : arg3.IsWhole) (arg4 : Memref sig .tc .vmem S32x256x512 .f32) (harg4 : arg4.IsWhole)
    (hc1 : ¬ k0_cond1 i = 1#1) (hc2 : k0_cond2 i = 1#1) (x0 : Vec F S32x256 .f32) (x1 : Vec F S32x512 .f32) (y : S32x256x512.Idx) :
    ∃ pc ∈ (kernelRunZ c i arg2 harg2 arg3 harg3 arg4 harg4 hc1 hc2 x0 x1).1, y ∈ pc.1.set :=
  View.cover_of_tiledL (kernelRunZ c i arg2 harg2 arg3 harg3 arg4 harg4 hc1 hc2 x0 x1).1 S32x256x512.size (by sl_kernel_rfl) y

/-- The band case's 32 stores, one [1, 256, 512] row each, tile the block: they cover it. -/
theorem coverB (c : Dev nD) (i : grid0.Coords) (arg2 : Memref sig .tc .vmem S32x256 .f32) (harg2 : arg2.IsWhole)
    (arg3 : Memref sig .tc .vmem S32x512 .f32) (harg3 : arg3.IsWhole) (arg4 : Memref sig .tc .vmem S32x256x512 .f32) (harg4 : arg4.IsWhole)
    (hc1 : k0_cond1 i = 1#1) (hc2 : ¬ k0_cond2 i = 1#1) (x0 : Vec F S32x256 .f32) (x1 : Vec F S32x512 .f32) (y : S32x256x512.Idx) :
    ∃ pc ∈ (kernelRunB c i arg2 harg2 arg3 harg3 arg4 harg4 hc1 hc2 x0 x1).1, y ∈ pc.1.set :=
  View.cover_of_tiledL (kernelRunB c i arg2 harg2 arg3 harg3 arg4 harg4 hc1 hc2 x0 x1).1 S1x256x512.size (by sl_kernel_rfl) y

/-- What the zero-fill case leaves in the output block: its piece read back. -/
def outZ (c : Dev nD) (i : grid0.Coords) (arg2 : Memref sig .tc .vmem S32x256 .f32) (harg2 : arg2.IsWhole)
    (arg3 : Memref sig .tc .vmem S32x512 .f32) (harg3 : arg3.IsWhole) (arg4 : Memref sig .tc .vmem S32x256x512 .f32) (harg4 : arg4.IsWhole)
    (hc1 : ¬ k0_cond1 i = 1#1) (hc2 : k0_cond2 i = 1#1) (x0 : Vec F S32x256 .f32) (x1 : Vec F S32x512 .f32) : Vec F S32x256x512 .f32 :=
  VO.read (Elt F) (VO.writes (Elt F) VO.junk (kernelRunZ c i arg2 harg2 arg3 harg3 arg4 harg4 hc1 hc2 x0 x1).1)

/-- What the band case leaves in the output block: its 32 pieces read back. -/
def outB (c : Dev nD) (i : grid0.Coords) (arg2 : Memref sig .tc .vmem S32x256 .f32) (harg2 : arg2.IsWhole)
    (arg3 : Memref sig .tc .vmem S32x512 .f32) (harg3 : arg3.IsWhole) (arg4 : Memref sig .tc .vmem S32x256x512 .f32) (harg4 : arg4.IsWhole)
    (hc1 : k0_cond1 i = 1#1) (hc2 : ¬ k0_cond2 i = 1#1) (x0 : Vec F S32x256 .f32) (x1 : Vec F S32x512 .f32) : Vec F S32x256x512 .f32 :=
  VO.read (Elt F) (VO.writes (Elt F) VO.junk (kernelRunB c i arg2 harg2 arg3 harg3 arg4 harg4 hc1 hc2 x0 x1).1)

/-- What the output block holds after the body at point t: the band case where the tile may meet the band, the
    zero fill elsewhere, each run on the point's staging buffers and input blocks. -/
def outAt (c : Dev nD) (t : Fin cfg0.N) : Vec F S32x256x512 .f32 :=
  if h : k0_cond1 (grid0.coords t) = 1#1 then
    outB c (grid0.coords t) (ms0 t) (hs0 t) (ms1 t) (hs1 t) (ms2 t) (hs2 t) h (fun h2 => (cond2_iff t).mp h2 h) (iblk m c 0 t) (iblk m c 1 t)
  else
    outZ c (grid0.coords t) (ms0 t) (hs0 t) (ms1 t) (hs1 t) (ms2 t) (hs2 t) h ((cond2_iff t).mpr h) (iblk m c 0 t) (iblk m c 1 t)

theorem outAt_band (c : Dev nD) (t : Fin cfg0.N) (h : k0_cond1 (grid0.coords t) = 1#1) :
    outAt m c t = outB c (grid0.coords t) (ms0 t) (hs0 t) (ms1 t) (hs1 t) (ms2 t) (hs2 t) h (fun h2 => (cond2_iff t).mp h2 h) (iblk m c 0 t) (iblk m c 1 t) :=
  dif_pos h

theorem outAt_zero (c : Dev nD) (t : Fin cfg0.N) (h : ¬ k0_cond1 (grid0.coords t) = 1#1) :
    outAt m c t = outZ c (grid0.coords t) (ms0 t) (hs0 t) (ms1 t) (hs1 t) (ms2 t) (hs2 t) h ((cond2_iff t).mpr h) (iblk m c 0 t) (iblk m c 1 t) :=
  dif_neg h

/-! ## The pipeline's proof data -/

/-- The proof data of the one pipeline on core c: the arrays as the region finds them; after the body at point t
    each input's buffer at its block and the output's at `outAt`; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outAt m c t := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 1000000 in
/-- The body at any point: the inputs' buffers hold their blocks; the first condition says which case the point is
    in, and that case's run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  by_cases h : k0_cond1 (grid0.coords t) = 1#1
  · rw [outAt_band m c t h]
    unfold outB
    iintro ⟨HΦ, Ho, ⟨%d0, H0⟩, ⟨%d1, H1⟩, ⟨%d2, H2⟩⟩
    iapply ((kernelRunB c (grid0.coords t) _ _ _ _ _ _ h (fun h2 => (cond2_iff t).mp h2 h) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverB c _ _ _ _ _ _ _ _ _ _ _)
  · rw [outAt_zero m c t h]
    unfold outZ
    iintro ⟨HΦ, Ho, ⟨%d0, H0⟩, ⟨%d1, H1⟩, ⟨%d2, H2⟩⟩
    iapply ((kernelRunZ c (grid0.coords t) _ _ _ _ _ _ h ((cond2_iff t).mpr h) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverZ c _ _ _ _ _ _ _ _ _ _ _)

/-- The library's body obligation, at every point: the output window is live at every point. -/
theorem body_obligation (c : Dev nD) : BodyObligation (dats (F := F) m 0 c) (defs₀ (F := F)) Variants.none () Set.univ := fun t => by
  rw [bigSep_W0, bigSep_W0]
  have hl : idle0 2 (grid0.coords t) = false := live2 t
  simp only [hl]
  exact sound_body m c t

/-! ## The run and the frame -/

set_option backward.isDefEq.respectTransparency.types false in
/-- At the compiled mesh, from any memory with zero counters: every weakly fair execution of @main terminates, and
    every final state has every array of the pipeline at what the library computes from the proof data. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.Spec.lean ====
/-
  The band-limited outer product as ONE function of the two argument arrays, and the word arithmetic of the band.
  For s, e : [32, 2048] the result at (b, r, c) is s[b, r] * e[b, c] where r ≤ c ≤ r + 15 and zero elsewhere. Both
  programs decide the band on 32-bit words: the bit is (c ≥ r, signed) and (c - r ≤ 15, signed), computed at the
  words of the row r and the column c. Rows and columns are below 2048, so the words order as the numbers do:
  the bit is clear where c < r and where r + 15 < c, and a word built as (tile index) * (tile size) + (position in
  the tile) is the word of the global position.
-/
import Idealize.ShloMosaic.PureOps.Ideal
import Idealize.ShloMosaic.Lib.ValueIdx
import Idealize.ShloMosaic.Lib.StableHlo.Predicate

noncomputable section

namespace Cert.BandSpec

open Idealize.ShloMosaic Idealize.ShloMosaic.ValueIdx Idealize.ShloMosaic.StableHlo.Predicate

/-- The band bit at the words of a row and a column: column ≥ row and column - row ≤ 15, both signed. -/
def bandBit (r c : BitVec 32) : BitVec 1 :=
  IntOp.andi (IntOp.cmpi .sge c r) (IntOp.cmpi .sle (IntOp.subi c r) 15#32)

/-- The result as one function of the argument arrays: the product inside the band, the zero word's value outside. -/
def G (s e : FVec Ideal (⟨2, ![32, 2048]⟩ : Shape) .f32) : FVec Ideal (⟨3, ![32, 2048, 2048]⟩ : Shape) .f32 := fun y =>
  Scalar.select (bandBit (BitVec.ofNat 32 (y 1).val) (BitVec.ofNat 32 (y 2).val))
    (s (ix2 (y 0) (y 1)) * e (ix2 (y 0) (y 2))) (Ideal.ofBits .f32 0x00000000#32)

/-- `G` at a position given by its coordinates. -/
theorem G_apply (s e : FVec Ideal (⟨2, ![32, 2048]⟩ : Shape) .f32) (b : Fin 32) (r c : Fin 2048) :
    G s e (ix3 b r c) = Scalar.select (bandBit (BitVec.ofNat 32 r.val) (BitVec.ofNat 32 c.val))
      (s (ix2 b r) * e (ix2 b c)) (Ideal.ofBits .f32 0x00000000#32) := rfl

theorem toNat_ofNat_small (a : ℕ) (ha : a < 2 ^ 31) : (BitVec.ofNat 32 a).toNat = a := by
  rw [BitVec.toNat_ofNat]; omega

/-- Below the diagonal (column < row) the band bit is clear. -/
theorem bandBit_of_lt {r c : ℕ} (hr : r < 2048) (hc : c < 2048) (h : c < r) :
    bandBit (BitVec.ofNat 32 r) (BitVec.ofNat 32 c) = 0#1 := by
  have h1 : IntOp.cmpi .sge (BitVec.ofNat 32 c) (BitVec.ofNat 32 r) = 0#1 := by
    apply eq_zero_of_ne_one
    intro h1
    have := (sge_iff_toNat (a := BitVec.ofNat 32 c) (b := BitVec.ofNat 32 r)
      (by rw [toNat_ofNat_small c (by omega)]; omega) (by rw [toNat_ofNat_small r (by omega)]; omega)).mp h1
    rw [toNat_ofNat_small c (by omega), toNat_ofNat_small r (by omega)] at this
    omega
  unfold bandBit
  rw [h1]
  unfold IntOp.andi
  exact BitVec.zero_and

/-- More than 15 columns right of the diagonal the band bit is clear. -/
theorem bandBit_of_far {r c : ℕ} (hr : r < 2048) (hc : c < 2048) (h : r + 15 < c) :
    bandBit (BitVec.ofNat 32 r) (BitVec.ofNat 32 c) = 0#1 := by
  have hsub : IntOp.subi (BitVec.ofNat 32 c) (BitVec.ofNat 32 r) = BitVec.ofNat 32 (c - r) := by
    unfold IntOp.subi
    apply BitVec.eq_of_toNat_eq
    simp only [BitVec.toNat_sub, BitVec.toNat_ofNat]
    omega
  have h2 : IntOp.cmpi .sle (IntOp.subi (BitVec.ofNat 32 c) (BitVec.ofNat 32 r)) 15#32 = 0#1 := by
    apply eq_zero_of_ne_one
    intro h2
    rw [hsub] at h2
    have := (sle_iff_toNat (a := BitVec.ofNat 32 (c - r)) (b := 15#32)
      (by rw [toNat_ofNat_small (c - r) (by omega)]; omega) (by decide)).mp h2
    rw [toNat_ofNat_small (c - r) (by omega)] at this
    have h15 : (15#32 : BitVec 32).toNat = 15 := by decide
    omega
  unfold bandBit
  rw [h2]
  unfold IntOp.andi
  exact BitVec.and_zero

/-- The word of a global position from the tile's index, the tile's size and the position inside the tile. -/
theorem ofNat_tile (k n p : ℕ) (hk : k < 8) (hn : n ≤ 512) (hp : p < 512) :
    IntOp.addi (Scalar.muli (BitVec.ofNat 32 k) (BitVec.ofNat 32 n)) (BitVec.ofNat 32 p) = BitVec.ofNat 32 (k * n + p) := by
  unfold IntOp.addi Scalar.muli IntOp.muli
  apply BitVec.eq_of_toNat_eq
  simp only [BitVec.toNat_add, BitVec.toNat_mul, BitVec.toNat_ofNat]
  have : k * n ≤ 7 * 512 := Nat.mul_le_mul (by omega) hn
  have e1 : k % 2 ^ 32 = k := Nat.mod_eq_of_lt (by omega)
  have e2 : n % 2 ^ 32 = n := Nat.mod_eq_of_lt (by omega)
  have e3 : p % 2 ^ 32 = p := Nat.mod_eq_of_lt (by omega)
  rw [e1, e2, e3, Nat.mod_eq_of_lt (show k * n < 2 ^ 32 by omega), Nat.mod_eq_of_lt (show k * n + p < 2 ^ 32 by omega)]

end Cert.BandSpec

end
-- ==== Proof.LibBroadcastCol.lean ====
/-
  A column broadcast over many columns, read at an index: the keepdims form [a, 1] -> [a, b] of a vector
  broadcast, which the library states only for one row ([1, b] -> [a, b]).
-/
import Idealize.ShloMosaic.Lib.Pipeline.Value
import Idealize.ShloMosaic.Lib.ValueIdx

noncomputable section

namespace Idealize.ShloMosaic.ValueIdx

open Idealize.ShloMosaic

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.BandRows.lean ====
/-
  The band case's 32 stores, row by row. Each store's payload is ONE function of the batch row b: column b of the
  transposed s-block, broadcast along the tile's columns, times row b of the e-block, broadcast along the tile's
  rows, kept under the tile's band mask and zero elsewhere, as a [1, 256, 512] row of the output block.
-/
import proofs.«413403_j54305566491023_3_alg».proof.Proof.BodyFrame
import proofs.«413403_j54305566491023_3_alg».proof.Proof.Spec
import Idealize.ShloMosaic.Lib.Pipeline.Value
import Idealize.ShloMosaic.Lib.ValueIdx
import Idealize.ShloMosaic.Lib.ValueLayout
import proofs.«413403_j54305566491023_3_alg».proof.Proof.LibBroadcastCol

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! ## The rectangles and the row payload -/

/-- Column b of the transposed [256, 32] s-block is a [256, 1] slice of it. -/
theorem slice_col (b : Fin 32) : S256x32.Slices ![0, b.val] S256x1 :=
  ⟨rfl, fun a => by
    match a with
    | ⟨0, _⟩ => exact Nat.le_refl 256
    | ⟨1, _⟩ => show b.val + 1 ≤ 32; omega⟩

theorem inb_erow (b : Fin 32) : ∀ a, (![b.val, 0] : Fin 2 → Nat) a + S1x512.size a ≤ S32x512.size a := fun a => by
  match a with
  | ⟨0, _⟩ => show b.val + 1 ≤ 32; omega
  | ⟨1, _⟩ => exact Nat.le_refl 512

theorem inb_orow (b : Fin 32) : ∀ a, (![b.val, 0, 0] : Fin 3 → Nat) a + S1x256x512.size a ≤ S32x256x512.size a := fun a => by
  match a with
  | ⟨0, _⟩ => show b.val + 1 ≤ 32; omega
  | ⟨1, _⟩ => exact Nat.le_refl 256
  | ⟨2, _⟩ => exact Nat.le_refl 512

/-- Row b of the [32, 512] e-block. -/
abbrev erow (b : Fin 32) : Rect S32x512 := Rect.unit (s := S32x512) ![b.val, 0] S1x512.size (inb_erow b)
/-- Row b of the [32, 256, 512] output block. -/
abbrev orow (b : Fin 32) : Rect S32x256x512 := Rect.unit (s := S32x256x512) ![b.val, 0, 0] S1x256x512.size (inb_orow b)

/-- The word of the tile's first row, and of its first column. -/
abbrev rowOff (i : grid0.Coords) : BitVec 32 := Scalar.muli (BitVec.ofNat 32 (i 0).val) 256#32
abbrev colOff (i : grid0.Coords) : BitVec 32 := Scalar.muli (BitVec.ofNat 32 (i 1).val) 512#32

/-- What the band case stores through row b of the output block. -/
def rowPay (i : grid0.Coords) (x0 : Vec F S32x256 .f32) (x1 : Vec F S32x512 .f32) (b : Fin 32) : FVec F S1x256x512 .f32 :=
  shapeCast S1x256x512
    (select (k0_pay4 (rowOff i) (colOff i))
      (mulf (broadcastTo S256x512 (extractStridedSlice S256x1 ![0, b.val] (k0_pay5 x0) (slice_col b)) broadcasts_S256x1_S256x512)
        (broadcastTo S256x512 (shapeCast S1x512 (shapeCast S512 (View.ld x1 (erow b)) shapeCasts_S1x512_S512) shapeCasts_S512_S1x512)
          broadcasts_S1x512_S256x512))
      (broadcast S256x512 (Scalar.ofBits .f32 0x00000000#32)))
    shapeCasts_S256x512_S1x256x512

/-- The band case's pieces, last store first: row 31 down to row 0. -/
def bandPieces (i : grid0.Coords) (x0 : Vec F S32x256 .f32) (x1 : Vec F S32x512 .f32) : List (View.Piece (Elt F) S32x256x512 .f32) :=
  ([31, 30, 29, 28, 27, 26, 25, 24, 23, 22, 21, 20, 19, 18, 17, 16, 15, 14, 13, 12, 11, 10, 9, 8, 7, 6, 5, 4, 3, 2, 1, 0] : List (Fin 32)).map
    fun b => (⟨orow b, rowPay i x0 x1 b⟩ : View.Piece (Elt F) S32x256x512 .f32)

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 2000000 in
/-- The pieces the band case's run found are these: each printed payload unfolds to the row payload of its row. -/
theorem piecesB_eq (c : Dev nD) (i : grid0.Coords) (arg2 : Memref sig .tc .vmem S32x256 .f32) (harg2 : arg2.IsWhole)
    (arg3 : Memref sig .tc .vmem S32x512 .f32) (harg3 : arg3.IsWhole) (arg4 : Memref sig .tc .vmem S32x256x512 .f32) (harg4 : arg4.IsWhole)
    (hc1 : k0_cond1 i = 1#1) (hc2 : ¬ k0_cond2 i = 1#1) (x0 : Vec F S32x256 .f32) (x1 : Vec F S32x512 .f32) :
    (kernelRunB c i arg2 harg2 arg3 harg3 arg4 harg4 hc1 hc2 x0 x1).1 = bandPieces i x0 x1 := by
  unfold kernelRunB
  dsimp only
  sl_unfold_words
  simp only [View.readAt_eq_ld, harg2.read_unread, harg3.read_unread, View.ld_unit_zero (S := S32x256) hz2]
  rfl

/-! ## The row payload and the two cases' blocks at an index, on the extended reals -/

/-- The tile's band mask at a position (r, c) of the tile is the band bit at the words of the global row and column:
    the tile's first row plus r, its first column plus c. -/
theorem mask_apply (v0 v1 : BitVec 32) (r : Fin 256) (cc : Fin 512) :
    k0_pay4 v0 v1 (ix2 r cc)
      = Cert.BandSpec.bandBit (IntOp.addi v0 (BitVec.ofNat 32 r.val)) (IntOp.addi v1 (BitVec.ofNat 32 cc.val)) := by
  unfold k0_pay4 Cert.BandSpec.bandBit
  simp only [andi, cmpi, subi, addi, broadcast, iota, List.foldl, Nat.zero_mul, Nat.zero_add]

/-- Row b of the e-block, read at column c. -/
theorem erow_idx (b : Fin 32) (cc : Fin 512) : (erow b).idx (ix2 (0 : Fin 1) cc) = ix2 b cc := by
  funext a; apply Fin.ext
  match a with
  | ⟨0, _⟩ => show b.val + 1 * 0 = b.val; omega
  | ⟨1, _⟩ => show 0 + 1 * cc.val = cc.val; omega

/-- Row b of the output block holds the positions (b, r, c). -/
theorem orow_emb (b : Fin 32) (x : S1x256x512.Idx) : (orow b).emb x = ix3 b (x 1) (x 2) := by
  have h0 : (x 0).val < 1 := (x 0).isLt
  funext a; apply Fin.ext
  match a with
  | ⟨0, _⟩ => show b.val + 1 * (x 0).val = b.val; omega
  | ⟨1, _⟩ => show 0 + 1 * (x 1).val = (x 1).val; omega
  | ⟨2, _⟩ => show 0 + 1 * (x 2).val = (x 2).val; omega

/-- THE ROW PAYLOAD AT A POSITION: s-block[b, r] * e-block[b, c] under the band bit, zero elsewhere. -/
theorem rowPay_apply (i : grid0.Coords) (x0 : Vec Ideal S32x256 .f32) (x1 : Vec Ideal S32x512 .f32) (b : Fin 32) (r : Fin 256) (cc : Fin 512) :
    rowPay (F := Ideal) i x0 x1 b (ix3 (0 : Fin 1) r cc)
      = Scalar.select (Cert.BandSpec.bandBit (IntOp.addi (rowOff i) (BitVec.ofNat 32 r.val)) (IntOp.addi (colOff i) (BitVec.ofNat 32 cc.val)))
          (x0 (ix2 b r) * x1 (ix2 b cc)) (Ideal.ofBits .f32 0x00000000#32) := by
  unfold rowPay
  rw [shapeCast_ab_1ab_apply, select_apply, mask_apply, mulf_apply, broadcastTo_a1_ab_apply, broadcastTo_1b_ab_apply,
    shapeCast_shapeCast, slice2_axis1_apply b.val _ (slice_col b) r (0 : Fin 1) b rfl]
  unfold k0_pay5
  rw [transpose_ix2_apply]
  show Scalar.select _ (x0 (ix2 b r) * x1 ((erow b).idx (ix2 (0 : Fin 1) cc))) _ = _
  rw [erow_idx]
  rfl

/-- The band case's block as one function of the position: the row payload of the position's batch row. -/
def bandBlock (i : grid0.Coords) (x0 : Vec Ideal S32x256 .f32) (x1 : Vec Ideal S32x512 .f32) : Vec Ideal S32x256x512 .f32 :=
  fun y => rowPay (F := Ideal) i x0 x1 (y 0) (ix3 (0 : Fin 1) (y 1) (y 2))

/-- Each of the 32 pieces is the block function on its row. -/
theorem bandPieces_spec (i : grid0.Coords) (x0 : Vec Ideal S32x256 .f32) (x1 : Vec Ideal S32x512 .f32) :
    ∀ p ∈ bandPieces (F := Ideal) i x0 x1, ∀ x : p.1.shape.Idx, p.2 x = bandBlock i x0 x1 (p.1.emb x) := by
  intro p hp
  obtain ⟨b, -, rfl⟩ := List.mem_map.mp hp
  intro x
  show rowPay (F := Ideal) i x0 x1 b x = bandBlock i x0 x1 ((orow b).emb x)
  rw [orow_emb]
  unfold bandBlock
  have hx : x = ix3 (0 : Fin 1) (x 1) (x 2) := by
    have h0 : (x 0).val < 1 := (x 0).isLt
    funext a
    match a with
    | ⟨0, _⟩ => exact Fin.ext (by show (x 0).val = 0; omega)
    | ⟨1, _⟩ => rfl
    | ⟨2, _⟩ => rfl
  exact congrArg _ hx

/-- THE BAND CASE'S BLOCK AT A POSITION (b, r, c). -/
theorem outB_apply (c : Dev nD) (i : grid0.Coords) (arg2 : Memref sig .tc .vmem S32x256 .f32) (harg2 : arg2.IsWhole)
    (arg3 : Memref sig .tc .vmem S32x512 .f32) (harg3 : arg3.IsWhole) (arg4 : Memref sig .tc .vmem S32x256x512 .f32) (harg4 : arg4.IsWhole)
    (hc1 : k0_cond1 i = 1#1) (hc2 : ¬ k0_cond2 i = 1#1) (x0 : Vec Ideal S32x256 .f32) (x1 : Vec Ideal S32x512 .f32)
    (b : Fin 32) (r : Fin 256) (cc : Fin 512) :
    outB (F := Ideal) c i arg2 harg2 arg3 harg3 arg4 harg4 hc1 hc2 x0 x1 (ix3 b r cc)
      = Scalar.select (Cert.BandSpec.bandBit (IntOp.addi (rowOff i) (BitVec.ofNat 32 r.val)) (IntOp.addi (colOff i) (BitVec.ofNat 32 cc.val)))
          (x0 (ix2 b r) * x1 (ix2 b cc)) (Ideal.ofBits .f32 0x00000000#32) := by
  unfold outB
  have hcov := coverB (F := Ideal) c i arg2 harg2 arg3 harg3 arg4 harg4 hc1 hc2 x0 x1
  rw [View.read_writes_eq_canon _ _ _ hcov]
  rw [piecesB_eq] at hcov ⊢
  rw [View.canon_apply_of_pieces (bandBlock i x0 x1) _ (bandPieces_spec i x0 x1) _ (hcov _)]
  exact rowPay_apply i x0 x1 b r cc

/-- THE ZERO-FILL CASE'S BLOCK is zero everywhere. -/
theorem outZ_apply (c : Dev nD) (i : grid0.Coords) (arg2 : Memref sig .tc .vmem S32x256 .f32) (harg2 : arg2.IsWhole)
    (arg3 : Memref sig .tc .vmem S32x512 .f32) (harg3 : arg3.IsWhole) (arg4 : Memref sig .tc .vmem S32x256x512 .f32) (harg4 : arg4.IsWhole)
    (hc1 : ¬ k0_cond1 i = 1#1) (hc2 : k0_cond2 i = 1#1) (x0 : Vec Ideal S32x256 .f32) (x1 : Vec Ideal S32x512 .f32)
    (y : S32x256x512.Idx) :
    outZ (F := Ideal) c i arg2 harg2 arg3 harg3 arg4 harg4 hc1 hc2 x0 x1 y = Ideal.ofBits .f32 0x00000000#32 := by
  unfold outZ
  rw [View.read_writes_eq_canon _ _ _ (coverZ (F := Ideal) c i arg2 harg2 arg3 harg3 arg4 harg4 hc1 hc2 x0 x1)]
  unfold kernelRunZ
  dsimp only
  sl_unfold_words
  rw [View.canon_unit_zero hz3]
  rfl

end Cert.KernelIdeal.Hand

end
-- ==== Proof.KernelValue.lean ====
/-
  The kernel's result array is the band-limited outer product `G` of its two arguments. Grid point (i, j) writes
  back the [32, 256, 512] block at rows 256 i .. 256 i + 255 and columns 512 j .. 512 j + 511 of the result; its
  s-block is columns 256 i .. of s and its e-block columns 512 j .. of e. Where the tile may meet the band the block
  is the product under the band bit at the global row and column, which is `G` there; where it cannot, every
  position of the tile is below the diagonal or more than 15 columns right of it, so `G` is zero on the tile, as
  the zero fill is. The 8 x 4 blocks tile the array.
-/
import proofs.«413403_j54305566491023_3_alg».proof.Proof.BandRows

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.BandSpec

variable (m : (ℓ : Loc nD τ sig) → Buf (Elt Ideal) ℓ) (ρ : Dev nD → PrngReg)

/-! ## The index maps and the skipped tiles, decided over the grid -/

/-- The three windows' block indices at a grid point are its coordinates: (0, i), (0, j) and (0, i, j). -/
theorem idx_facts : ∀ t : Fin cfg0.N,
    win0_0.index t (0 : Fin 2) = 0 ∧ win0_0.index t (1 : Fin 2) = (grid0.coords t 0).val
    ∧ win0_1.index t (0 : Fin 2) = 0 ∧ win0_1.index t (1 : Fin 2) = (grid0.coords t 1).val
    ∧ win0_2.index t (0 : Fin 3) = 0 ∧ win0_2.index t (1 : Fin 3) = (grid0.coords t 0).val
    ∧ win0_2.index t (2 : Fin 3) = (grid0.coords t 1).val
    ∧ (grid0.coords t 0).val < 8 ∧ (grid0.coords t 1).val < 4 :=
  (by decide +kernel : ∀ t : Fin grid0.N, _)

/-- A tile the body skips lies wholly below the diagonal or wholly more than 15 columns right of it. -/
theorem far_facts : ∀ t : Fin cfg0.N, ¬ k0_cond1 (grid0.coords t) = 1#1 →
    (grid0.coords t 1).val * 512 + 511 < (grid0.coords t 0).val * 256
      ∨ (grid0.coords t 0).val * 256 + 270 < (grid0.coords t 1).val * 512 :=
  (by decide +kernel : ∀ t : Fin grid0.N, _)

/-- Every block of the 8 x 4 tiling is some point's. -/
theorem idx_onto : ∀ (q0 : Fin 8) (q1 : Fin 4), ∃ t : Fin cfg0.N, win0_2.index t = ![0, q0.val, q1.val] :=
  (by decide +kernel : ∀ (q0 : Fin 8) (q1 : Fin 4), ∃ t : Fin grid0.N, win0_2.index t = ![0, q0.val, q1.val])

/-! ## What point t writes back is block t of `G` -/

/-- The output block after the body at point t, position by position, is `G` of the argument arrays at the
    block's place in the result. -/
theorem block_eq (c : Dev nD) (t : Fin cfg0.N) (y : S32x256x512.Idx) :
    outAt m c t y = G (V m c main_arg0) (V m c main_arg1) (((cfg0.win 2).blk t).view.emb y) := by
  obtain ⟨b, r, cc, rfl⟩ : ∃ (b : Fin 32) (r : Fin 256) (cc : Fin 512), y = ix3 b r cc := ⟨y 0, y 1, y 2, eq_ix3 y⟩
  obtain ⟨e00, e01, e10, e11, e20, e21, e22, hb0, hb1⟩ := idx_facts t
  have hr : r.val < 256 := r.isLt
  have hcc : cc.val < 512 := cc.isLt
  have hR : (grid0.coords t 0).val * 256 + r.val < 2048 := by omega
  have hC : (grid0.coords t 1).val * 512 + cc.val < 2048 := by omega
  have h2 : ((cfg0.win 2).blk t).view.emb (ix3 b r cc)
      = ix3 b (⟨(grid0.coords t 0).val * 256 + r.val, hR⟩ : Fin 2048) (⟨(grid0.coords t 1).val * 512 + cc.val, hC⟩ : Fin 2048) := by
    funext a; apply Fin.ext
    match a with
    | ⟨0, _⟩ => show win0_2.index t (0 : Fin 3) * 32 + 1 * b.val = b.val; omega
    | ⟨1, _⟩ => show win0_2.index t (1 : Fin 3) * 256 + 1 * r.val = (grid0.coords t 0).val * 256 + r.val; omega
    | ⟨2, _⟩ => show win0_2.index t (2 : Fin 3) * 512 + 1 * cc.val = (grid0.coords t 1).val * 512 + cc.val; omega
  have h0 : iblk m c 0 t (ix2 b r) = V m c main_arg0 (ix2 b (⟨(grid0.coords t 0).val * 256 + r.val, hR⟩ : Fin 2048)) := by
    show V m c main_arg0 (((cfg0.win 0).blk t).view.emb (ix2 b r)) = _
    refine congrArg _ ?_
    funext a; apply Fin.ext
    match a with
    | ⟨0, _⟩ => show win0_0.index t (0 : Fin 2) * 32 + 1 * b.val = b.val; omega
    | ⟨1, _⟩ => show win0_0.index t (1 : Fin 2) * 256 + 1 * r.val = (grid0.coords t 0).val * 256 + r.val; omega
  have h1 : iblk m c 1 t (ix2 b cc) = V m c main_arg1 (ix2 b (⟨(grid0.coords t 1).val * 512 + cc.val, hC⟩ : Fin 2048)) := by
    show V m c main_arg1 (((cfg0.win 1).blk t).view.emb (ix2 b cc)) = _
    refine congrArg _ ?_
    funext a; apply Fin.ext
    match a with
    | ⟨0, _⟩ => show win0_1.index t (0 : Fin 2) * 32 + 1 * b.val = b.val; omega
    | ⟨1, _⟩ => show win0_1.index t (1 : Fin 2) * 512 + 1 * cc.val = (grid0.coords t 1).val * 512 + cc.val; omega
  rw [h2, G_apply]
  by_cases h : k0_cond1 (grid0.coords t) = 1#1
  · rw [outAt_band m c t h, outB_apply, h0, h1,
      ofNat_tile (grid0.coords t 0).val 256 r.val hb0 (by omega) (by omega),
      ofNat_tile (grid0.coords t 1).val 512 cc.val (by omega) (Nat.le_refl _) hcc]
  · rw [outAt_zero m c t h, outZ_apply]
    have hz : bandBit (BitVec.ofNat 32 ((grid0.coords t 0).val * 256 + r.val)) (BitVec.ofNat 32 ((grid0.coords t 1).val * 512 + cc.val)) = 0#1 := by
      rcases far_facts t h with hf | hf
      · exact bandBit_of_lt hR hC (by omega)
      · exact bandBit_of_far hR hC (by omega)
    rw [hz, select_zero]

/-- WHAT POINT t WRITES BACK is block t of `G` of the argument arrays. -/
theorem flushed_eq (c : Dev nD) (t : Fin cfg0.N) :
    (dats m 0 c).flushed 2 t = ((cfg0.win 2).blk t).view.read (Elt Ideal) (G (V m c main_arg0) (V m c main_arg1)) := by
  show (cfg0.win 2).cut (grid0.coords t) ((dats m 0 c).after 2 t) = _
  rw [after_2]
  funext y
  exact block_eq m c t y

/-! ## The blocks tile the array -/

/-- An index of the result is in point t's block iff each coordinate is in the block's range on its axis. -/
theorem mem_blk (t : Fin cfg0.N) (i : S32x2048x2048.Idx) :
    i ∈ ((cfg0.win 2).blk t).view.set ↔ ∀ a : Fin 3, win0_2.index t a * S32x256x512.size a ≤ (i a).val
      ∧ (i a).val < win0_2.index t a * S32x256x512.size a + S32x256x512.size a := by
  show i ∈ ((View.whole main_v0).slice (win0_2.rect t)).set ↔ _
  rw [View.set_slice_whole, Rect.mem_set_unit]
  exact Iff.rfl

/-- Every index of the result is in the block of the point (row / 256, column / 512). -/
theorem covered (i : S32x2048x2048.Idx) :
    ∃ t : Fin cfg0.N, (cfg0.win 2).flush t = true ∧ i ∈ ((cfg0.win 2).blk t).view.set := by
  have hi0 : (i 0).val < 32 := (i 0).isLt
  have hi1 : (i 1).val < 2048 := (i 1).isLt
  have hi2 : (i 2).val < 2048 := (i 2).isLt
  obtain ⟨t, ht⟩ := idx_onto ⟨(i 1).val / 256, by omega⟩ ⟨(i 2).val / 512, by omega⟩
  have q0 : win0_2.index t (0 : Fin 3) = 0 := congrFun ht 0
  have q1 : win0_2.index t (1 : Fin 3) = (i 1).val / 256 := congrFun ht 1
  have q2 : win0_2.index t (2 : Fin 3) = (i 2).val / 512 := congrFun ht 2
  refine ⟨t, flush0_2 t, ?_⟩
  rw [mem_blk]
  intro a
  match a with
  | ⟨0, _⟩ => show win0_2.index t (0 : Fin 3) * 32 ≤ (i 0).val ∧ (i 0).val < win0_2.index t (0 : Fin 3) * 32 + 32; omega
  | ⟨1, _⟩ => show win0_2.index t (1 : Fin 3) * 256 ≤ (i 1).val ∧ (i 1).val < win0_2.index t (1 : Fin 3) * 256 + 256; omega
  | ⟨2, _⟩ => show win0_2.index t (2 : Fin 3) * 512 ≤ (i 2).val ∧ (i 2).val < win0_2.index t (2 : Fin 3) * 512 + 512; omega

/-! ## The array after the run, and the run -/

/-- THE RESULT ARRAY after the run is `G` of the argument arrays. -/
theorem final (c : Dev nD) :
    (dats m 0 c).arrAt 2 cfg0.N = G (m ((c : Thread nD τ).loc main_arg0)) (m ((c : Thread nD τ).loc main_arg1)) :=
  (dats m 0 c).arrAt_eq_of_cover 2 (G (V m c main_arg0) (V m c main_arg1)) (fun t _ => flushed_eq m c t) covered

/-- The run re-posted: the result at `G` of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Hand

end
-- ==== Proof.RefValue.lean ====
/-
  The reference's result is the band-limited outer product `G` of its two arguments. The reference multiplies
  s[b, r] (broadcast along the columns) by e[b, c] (broadcast along the rows), builds the band mask from a row
  iota and a column iota compared as 32-bit words, and selects the product under the mask and zero elsewhere:
  read at an index (b, r, c), stage by stage, that is `G` there.
-/
import proofs.«413403_j54305566491023_3_alg».proof.Proof.Gen.ReferenceIdeal.Read
import proofs.«413403_j54305566491023_3_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's last stage is `G`, index by index. -/
theorem ref_eq_G (x0 x1 : (⟨S32x2048, .f32⟩ : BufTy).Contents (Elt Ideal)) :
    val_main_v18 (F := Ideal) x0 x1 = Cert.BandSpec.G x0 x1 := by
  funext i
  have e0 : idx_main_v0 (idx_main_v2 i) = ix2 (i 0) (i 1) :=
    funext fun a => Fin.ext (by match a with | ⟨0, _⟩ => rfl | ⟨1, _⟩ => rfl)
  have e1 : idx_main_v1 (idx_main_v3 i) = ix2 (i 0) (i 2) :=
    funext fun a => Fin.ext (by match a with | ⟨0, _⟩ => rfl | ⟨1, _⟩ => rfl)
  simp only [val_main_v18_apply, val_main_call0_v0_apply, val_main_v17_apply, val_main_v11_apply, val_main_v16_apply,
    val_main_v14_apply, val_main_v9_apply, val_main_v10_apply, val_main_v12_apply, val_main_v13_apply, val_main_v8_apply,
    val_main_v6_apply, val_main_v7_apply, val_main_v5_apply, val_main_v15_apply, val_main_c_apply, val_main_v4_apply,
    val_main_v2_apply, val_main_v3_apply, val_main_v0_apply, val_main_v1_apply, val_main_call0_v1_apply, val_main_cst_apply,
    e0, e1]
  rfl

end Cert.ReferenceIdeal.RefValue

end
-- ==== Proof.lean ====
/-
  The certificate of the band-limited outer product: for s, e : [32, 2048] the kernel writes, tile by tile over an
  8 x 4 grid of [32, 256, 512] blocks, s[b, r] * e[b, c] where r ≤ c ≤ r + 15 and zero elsewhere, skipping the
  product on tiles whose bounding box misses the band and filling them with zeros; the reference computes the same
  array in one piece with a mask from two iotas. On the extended reals both results are ONE function `G` of the
  arguments (no law beyond reading both sides at an index: the product is the same product, the band bit the same
  bit at the same words, and the skipped tiles are zero in `G` because every position in them is off the band),
  so the equivalence needs no finiteness. The frames: the kernel body runs in one of two cases at every grid point
  (band tile or zero fill), each storing the whole output block; the reference's frame is its run with the result
  dropped. The idealization rewrote nothing, so `preserves` is trivial.
-/
import proofs.«413403_j54305566491023_3_alg».proof.Defs
import proofs.«413403_j54305566491023_3_alg».proof.Proof.Gen.Kernel
import proofs.«413403_j54305566491023_3_alg».proof.Proof.Gen.KernelIdeal
import proofs.«413403_j54305566491023_3_alg».proof.Proof.Gen.ReferenceIdeal
import proofs.«413403_j54305566491023_3_alg».proof.Proof.Gen.Pre_finite_inputs
import proofs.«413403_j54305566491023_3_alg».proof.Proof.BitsBodyFrame
import proofs.«413403_j54305566491023_3_alg».proof.Proof.KernelValue
import proofs.«413403_j54305566491023_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On the extended reals the kernel's result array ends at `G` of its arguments and the reference's at its last
    stage of arguments that agree with them, which is `G` too. -/
theorem algebraic : Cert.algebraic_KernelIdeal_ReferenceIdeal := by
  intro m ρ m' ρ' _ hagree
  refine ⟨fun c => Cert.BandSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.ref_eq_G, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
